-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel

variable [Facts]

def fn_part1 {F : FTy → Type} [FloatOps F] (main_arg4 : FVec F S262144x64 .f32) (main_v13 : IVec S_ 1) (main_v16 : IVec S262144x64 1) : IVec S_ 1 :=
  let main_c_5 : IVec S_ 1 := constantI S_ 1 1#1
  let main_v17 : IVec S_ 1 := (fun x v => Host.reduce IntOp.andi x v reducesTo_S262144x64_S_d0_1 h_S_) main_v16 main_c_5
  let main_v18 : IVec S_ 1 := andi main_v13 main_v17
  let main_v19 : FVec F S262144x64 .f32 := Host.absf main_arg4
  let main_cst_6 : FVec F S_ .f32 := constant S_ .f32 0x7F800000#32
  let main_v20 : FVec F S262144x64 .f32 := broadcastInDim S262144x64 ![] bcast_S_S262144x64 main_cst_6
  let main_v21 : IVec S262144x64 1 := cmpf .olt main_v19 main_v20
  let main_c_7 : IVec S_ 1 := constantI S_ 1 1#1
  let main_v22 : IVec S_ 1 := (fun x v => Host.reduce IntOp.andi x v reducesTo_S262144x64_S_d0_1 h_S_) main_v21 main_c_7
  let main_v23 : IVec S_ 1 := andi main_v18 main_v22
  main_v23

def fn {F : FTy → Type} [FloatOps F] (main_arg0 : FVec F S262144x64 .f32) (main_arg1 : FVec F S262144x64 .f32) (main_arg2 : FVec F S262144x64 .f32) (main_arg3 : FVec F S262144x64 .f32) (main_arg4 : FVec F S262144x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S262144x64 .f32 := Host.absf main_arg3
  let main_cst_4 : FVec F S_ .f32 := constant S_ .f32 0x7F800000#32
  let main_v15 : FVec F S262144x64 .f32 := broadcastInDim S262144x64 ![] bcast_S_S262144x64 main_cst_4
  let main_v16 : IVec S262144x64 1 := cmpf .olt main_v14 main_v15
  fn_part1 (F := F) main_arg4 main_v13 main_v16
-- ==== Kernel.lean ====
abbrev S262144x64 : Shape := ⟨2, ![262144, 64]⟩
abbrev S131072x128 : Shape := ⟨2, ![131072, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 18
  | .vmem => 18
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S262144x64, .f32⟩
  | .hbm, ⟨4, _⟩ => ⟨S262144x64, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S131072x128, .f32⟩
  | .hbm, ⟨10, _⟩ => ⟨S131072x128, .f32⟩
  | .hbm, ⟨11, _⟩ => ⟨S131072x128, .f32⟩
  | .hbm, ⟨12, _⟩ => ⟨S131072x128, .f32⟩
  | .hbm, ⟨13, _⟩ => ⟨S131072x128, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S262144x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S262144x64_S131072x128 : S262144x64.ShapeCasts S131072x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x128_d1_w32 : S2048x128.Iotas .tc 32 [1]
  reduces_S2048x128_S2048 : S2048x128.Reduces [1] S2048
  shapeCasts_S2048_S2048x1 : S2048.ShapeCasts S2048x1
  shapeCasts_S2048x1_S2048x1 : S2048x1.ShapeCasts S2048x1
  broadcasts_S2048x1_S2048x128 : S2048x1.Broadcasts S2048x128
  shapeCasts_S131072x128_S262144x64 : S131072x128.ShapeCasts S262144x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S131072x128.size a
  hwx0_4 : ∀ i : grid0.Coords, EltTy.bits .f32 = 32 ∨ (Rect.block (s := S131072x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S131072x128.size a
  hwx0_6 : ∀ i : grid0.Coords, EltTy.bits .f32 = 32 ∨ (Rect.block (s := S131072x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S131072x128.size a
  hwx0_8 : ∀ i : grid0.Coords, EltTy.bits .f32 = 32 ∨ (Rect.block (s := S131072x128) S2048x128.size (cc0_transform_8 i) (hinb0_8 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_3) S2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x64 : Shape := ⟨2, ![262144, 64]⟩
abbrev S_ : Shape := ⟨0, ![]⟩
abbrev S262144 : Shape := ⟨1, ![262144]⟩
abbrev S262144x1 : Shape := ⟨2, ![262144, 1]⟩

abbrev nBuf : Space → Nat
  | .hbm => 77
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S262144x64, .f32⟩
  | .hbm, ⟨4, _⟩ => ⟨S262144x64, .f32⟩
  | .hbm, ⟨5, _⟩ => ⟨S_, .f32⟩
  | .hbm, ⟨6, _⟩ => ⟨S262144x64, .f32⟩
  | .hbm, ⟨7, _⟩ => ⟨S262144x64, .f32⟩
  | .hbm, ⟨8, _⟩ => ⟨S262144x64, .f32⟩
  | .hbm, ⟨9, _⟩ => ⟨S262144x64, .f32⟩
  | .hbm, ⟨10, _⟩ => ⟨S_, .f32⟩
  | .hbm, ⟨11, _⟩ => ⟨S262144, .f32⟩
  | .hbm, ⟨12, _⟩ => ⟨S262144x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S262144x1, .f32⟩
  | .hbm, ⟨17, _⟩ => ⟨S262144x1, .f32⟩
  | .hbm, ⟨18, _⟩ => ⟨S_, .f32⟩
  | .hbm, ⟨19, _⟩ => ⟨S262144x1, .f32⟩
  | .hbm, ⟨20, _⟩ => ⟨S262144x1, .f32⟩
  | .hbm, ⟨21, _⟩ => ⟨S262144x64, .f32⟩
  | .hbm, ⟨22, _⟩ => ⟨S262144x64, .f32⟩
  | .hbm, ⟨23, _⟩ => ⟨S_, .f32⟩
  | .hbm, ⟨24, _⟩ => ⟨S262144x64, .f32⟩
  | .hbm, ⟨25, _⟩ => ⟨S262144x64, .f32⟩
  | .hbm, ⟨26, _⟩ => ⟨S262144x64, .f32⟩
  | .hbm, ⟨27, _⟩ => ⟨S262144x64, .f32⟩
  | .hbm, ⟨28, _⟩ => ⟨S_, .f32⟩
  | .hbm, ⟨29, _⟩ => ⟨S262144, .f32⟩
  | .hbm, ⟨30, _⟩ => ⟨S262144x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S262144x1, .f32⟩
  | .hbm, ⟨35, _⟩ => ⟨S262144x1, .f32⟩
  | .hbm, ⟨36, _⟩ => ⟨S_, .f32⟩
  | .hbm, ⟨37, _⟩ => ⟨S262144x1, .f32⟩
  | .hbm, ⟨38, _⟩ => ⟨S262144x1, .f32⟩
  | .hbm, ⟨39, _⟩ => ⟨S262144x64, .f32⟩
  | .hbm, ⟨40, _⟩ => ⟨S262144x64, .f32⟩
  | .hbm, ⟨41, _⟩ => ⟨S_, .f32⟩
  | .hbm, ⟨42, _⟩ => ⟨S262144x64, .f32⟩
  | .hbm, ⟨43, _⟩ => ⟨S262144x64, .f32⟩
  | .hbm, ⟨44, _⟩ => ⟨S262144x64, .f32⟩
  | .hbm, ⟨45, _⟩ => ⟨S262144x64, .f32⟩
  | .hbm, ⟨46, _⟩ => ⟨S_, .f32⟩
  | .hbm, ⟨47, _⟩ => ⟨S262144, .f32⟩
  | .hbm, ⟨48, _⟩ => ⟨S262144x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S262144x1, .f32⟩
  | .hbm, ⟨53, _⟩ => ⟨S262144x1, .f32⟩
  | .hbm, ⟨54, _⟩ => ⟨S_, .f32⟩
  | .hbm, ⟨55, _⟩ => ⟨S262144x1, .f32⟩
  | .hbm, ⟨56, _⟩ => ⟨S262144x1, .f32⟩
  | .hbm, ⟨57, _⟩ => ⟨S262144x64, .f32⟩
  | .hbm, ⟨58, _⟩ => ⟨S262144x64, .f32⟩
  | .hbm, ⟨59, _⟩ => ⟨S_, .f32⟩
  | .hbm, ⟨60, _⟩ => ⟨S262144x64, .f32⟩
  | .hbm, ⟨61, _⟩ => ⟨S262144x64, .f32⟩
  | .hbm, ⟨62, _⟩ => ⟨S262144x64, .f32⟩
  | .hbm, ⟨63, _⟩ => ⟨S262144x64, .f32⟩
  | .hbm, ⟨64, _⟩ => ⟨S_, .f32⟩
  | .hbm, ⟨65, _⟩ => ⟨S262144, .f32⟩
  | .hbm, ⟨66, _⟩ => ⟨S262144x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S262144x1, .f32⟩
  | .hbm, ⟨71, _⟩ => ⟨S262144x1, .f32⟩
  | .hbm, ⟨72, _⟩ => ⟨S_, .f32⟩
  | .hbm, ⟨73, _⟩ => ⟨S262144x1, .f32⟩
  | .hbm, ⟨74, _⟩ => ⟨S262144x1, .f32⟩
  | .hbm, ⟨75, _⟩ => ⟨S262144x64, .f32⟩
  | .hbm, ⟨76, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_7 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_8 : Ref sig .tc := ⟨.hbm, 46, rfl⟩
abbrev main_v22 : Ref sig .tc := ⟨.hbm, 47, rfl⟩
abbrev main_v23 : Ref sig .tc := ⟨.hbm, 48, rfl⟩
abbrev main_cst_9 : Ref sig .tc := ⟨.hbm, 49, rfl⟩
abbrev main_cst_10 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_11 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_12 : Ref sig .tc := ⟨.hbm, 64, rfl⟩
abbrev main_v31 : Ref sig .tc := ⟨.hbm, 65, rfl⟩
abbrev main_v32 : Ref sig .tc := ⟨.hbm, 66, rfl⟩
abbrev main_cst_13 : Ref sig .tc := ⟨.hbm, 67, rfl⟩
abbrev main_cst_14 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  reducesTo_S262144x64_S262144_d1 : S262144x64.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)

variable [Facts₀]

class Facts : Prop extends Facts₀ where

variable [Facts]
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.FiniteInputs.lean ====
/-
  The precondition read back: every entry of the five input arrays is a real number.

  The precondition is the conjunction, over the five arrays, of "every entry's absolute value is
  below +∞". On the extended reals |x| < +∞ fails exactly at the two infinities, so an array that
  passes has only real entries.
-/
import proofs.«412795_j53008486367235_3_alg».proof.Proof.Gen.Pre_finite_inputs
import proofs.«412795_j53008486367235_3_alg».proof.Proof.LibIdealFinite
import Idealize.ShloMosaic.Lib.ReduceAll
import Idealize.ShloMosaic.Lib.ValueIdx

noncomputable section

namespace Cert.Pre_finite_inputs.Finite

open Cert.Pre_finite_inputs Cert.Pre_finite_inputs.Facts Idealize.ShloMosaic IdealFinite

/-- The shape with no axes has one index. -/
instance : Subsingleton S_.Idx := ⟨fun a b => funext fun d => d.elim0⟩

/-- An extended real whose absolute value compares below +∞ is a real number. -/
theorem isFin_of_abs_lt (x : EReal)
    (h : Ideal.cmp .olt (max x (-x)) (Ideal.ofBits .f32 0x7F800000#32) = 1#1) : IsFin x := by
  rw [ofBits_7F800000] at h
  induction x using EReal.rec with
  | bot => simp [Ideal.cmp] at h
  | top => simp [Ideal.cmp] at h
  | coe r => exact ⟨r, rfl⟩

/-- One array's test: if "all |a| < +∞" came out true, every entry of a is real. -/
theorem allFin_of_test (a : FVec Ideal S262144x64 .f32) (init : IVec S_ 1)
    (e : Host.reduce IntOp.andi
      (cmpf .olt (Host.absf a) (broadcastInDim S262144x64 ![] bcast_S_S262144x64 (constant (F := Ideal) S_ .f32 0x7F800000#32)))
      init reducesTo_S262144x64_S_d0_1 h_S_ ValueIdx.ix0 = 1#1) (i : S262144x64.Idx) : IsFin (a i) := by
  have hi := Host.reduce_andi_all _ _ _ _ _ e i
  exact isFin_of_abs_lt (a i) hi

/-- The whole precondition: all five arrays have only real entries. -/
theorem finite_of_pre (a0 a1 a2 a3 a4 : FVec Ideal S262144x64 .f32)
    (h : fn (F := Ideal) a0 a1 a2 a3 a4 = fun _ => 1#1) :
    (∀ i, IsFin (a0 i)) ∧ (∀ i, IsFin (a1 i)) ∧ (∀ i, IsFin (a2 i)) ∧ (∀ i, IsFin (a3 i)) ∧ (∀ i, IsFin (a4 i)) := by
  have e := congrFun h ValueIdx.ix0
  dsimp only [fn, fn_part1] at e
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨allFin_of_test a0 _ e0, allFin_of_test a1 _ e1, allFin_of_test a2 _ e2,
    allFin_of_test a3 _ e3, allFin_of_test a4 _ e4⟩

end Cert.Pre_finite_inputs.Finite

end
-- ==== Proof.RowPairLaw.lean ====
/-
  Two rows of 64 numbers laid side by side in one row of 128 lanes, and the quotient
  100 · x · s / clip(Σ x · s) taken for both of them at once.

  For a packed row (xr, sr) of 128 lanes, the first 64 lanes carry one logical row and the last
  64 the next one. The packed computation takes the sum of xr · sr over the first 64 lanes by
  masking the other lanes to zero, and obtains the second row's sum as the difference between the
  sum over all 128 lanes and that masked sum. Over real numbers the difference is the sum over
  the last 64 lanes; over the extended reals this needs every product to be a real number
  (∞ − ∞ is not 0 there). The denominator is clipped into [lo, hi] with 0 < lo and hi real, so
  it is a nonzero real whatever the sum is, and then x · s · (100 / c) = (100 · x · s) / c is
  commutativity and associativity of the product on the extended reals.
-/
import proofs.«412795_j53008486367235_3_alg».proof.Proof.LibIdealFinite
import Mathlib.Algebra.BigOperators.Fin

noncomputable section

namespace RowPair

open Idealize.ShloMosaic IdealFinite
open scoped BigOperators

/-! ### The four binary32 constants -/

/-- The lower clipping bound, the binary32 number nearest 1e-8: 11258999 · 2^(-50). -/
abbrev lo : EReal := Ideal.ofBits .f32 0x322BCC77#32
/-- The upper clipping bound, 1e8. -/
abbrev hi : EReal := Ideal.ofBits .f32 0x4CBEBC20#32
/-- The numerator's factor, 100. -/
abbrev hundred : EReal := Ideal.ofBits .f32 0x42C80000#32
/-- The pattern of +0.0. -/
abbrev zero : EReal := Ideal.ofBits .f32 0x00000000#32

theorem lo_val : lo = ((11258999 / 1125899906842624 : ℝ) : EReal) := by
  simp [Ideal.ofBits, Ideal.ieee, -EReal.coe_mul]; norm_num

theorem hi_val : hi = ((100000000 : ℝ) : EReal) := by
  simp [Ideal.ofBits, Ideal.ieee, -EReal.coe_mul]; norm_num

theorem zero_val : zero = 0 := by
  simp [Ideal.ofBits, Ideal.ieee]

/-! ### The clipped denominator -/

/-- A value clipped into [lo, hi]. -/
def clip (b : EReal) : EReal := min hi (max lo b)

/-- Whatever is clipped, an infinity included, the result is a nonzero real number: it lies in
    [lo, hi] and 0 < lo ≤ hi < ∞. -/
theorem clip_real (b : EReal) : ∃ c : ℝ, c ≠ 0 ∧ clip b = (c : EReal) := by
  have hlo : (0 : EReal) < lo := by
    rw [lo_val]; exact_mod_cast (by norm_num : (0 : ℝ) < 11258999 / 1125899906842624)
  have hhi : (0 : EReal) < hi := by
    rw [hi_val]; exact_mod_cast (by norm_num : (0 : ℝ) < 100000000)
  have hpos : 0 < clip b := lt_min hhi (lt_of_lt_of_le hlo (le_max_left _ _))
  have htop : clip b ≠ ⊤ :=
    ne_top_of_le_ne_top (by rw [hi_val]; exact EReal.coe_ne_top _) (min_le_left _ _)
  have hbot : clip b ≠ ⊥ := ne_bot_of_gt hpos
  have hc : ((clip b).toReal : EReal) = clip b := EReal.coe_toReal htop hbot
  refine ⟨(clip b).toReal, fun h0 => ?_, hc.symm⟩
  rw [h0, EReal.coe_zero] at hc
  exact absurd hc.symm (ne_of_gt hpos)

/-- With a nonzero real denominator, scaling the product x · s by h / c is dividing h · x · s by c. -/
theorem scale_law (x s h : EReal) {c : ℝ} (hc : c ≠ 0) :
    x * s * Ideal.div h (c : EReal) = Ideal.div (h * x * s) (c : EReal) := by
  rw [Ideal.div_coe hc, Ideal.div_coe hc]; ac_rfl

/-! ### The 128 lanes as two rows of 64 -/

/-- Lane k of the first logical row. -/
def lane0 (k : Fin 64) : Fin 128 := ⟨k.val, by omega⟩
/-- Lane k of the second logical row. -/
def lane1 (k : Fin 64) : Fin 128 := ⟨64 + k.val, by omega⟩

theorem lane0_lt (k : Fin 64) : (lane0 k).val < 64 := k.isLt
theorem lane1_not_lt (k : Fin 64) : ¬ (lane1 k).val < 64 := by
  show ¬ (64 + k.val < 64); omega

/-- A sum over the 128 lanes is the first row's sum plus the second row's. -/
theorem sum_lanes (f : Fin 128 → EReal) :
    ∑ k : Fin 128, f k = (∑ k : Fin 64, f (lane0 k)) + ∑ k : Fin 64, f (lane1 k) :=
  Fin.sum_univ_add (a := 64) (b := 64) f

/-- The sum with the second row's lanes masked to zero is the first row's sum. -/
theorem sum_masked (f : Fin 128 → EReal) :
    (∑ k : Fin 128, if k.val < 64 then f k else zero) = ∑ k : Fin 64, f (lane0 k) := by
  rw [sum_lanes]
  have h0 : ∀ k : Fin 64, (if (lane0 k).val < 64 then f (lane0 k) else zero) = f (lane0 k) :=
    fun k => if_pos (lane0_lt k)
  have h1 : ∀ k : Fin 64, (if (lane1 k).val < 64 then f (lane1 k) else zero) = 0 :=
    fun k => (if_neg (lane1_not_lt k)).trans zero_val
  simp only [h0, h1, Finset.sum_const_zero, add_zero]

/-- When every term is a real number, the sum over all lanes less the first row's sum is the
    second row's sum. -/
theorem sum_rest (f : Fin 128 → EReal) (hf : ∀ k, IsFin (f k)) :
    (∑ k : Fin 128, f k) - (∑ k : Fin 64, f (lane0 k)) = ∑ k : Fin 64, f (lane1 k) := by
  rw [sum_lanes]
  obtain ⟨a, ha⟩ := isFin_sum Finset.univ (fun k => f (lane0 k)) (fun k _ => hf _)
  obtain ⟨b, hb⟩ := isFin_sum Finset.univ (fun k => f (lane1 k)) (fun k _ => hf _)
  rw [ha, hb, ← EReal.coe_add, ← EReal.coe_sub]
  congr 1; ring

/-! ### The packed row's value and the plain row's value -/

/-- The row sum a lane is divided by, as the packed computation forms it: the masked sum on the
    first row's lanes, the full sum less the masked sum on the second row's. -/
def den (xr sr : Fin 128 → EReal) (l : Fin 128) : EReal :=
  if l.val < 64 then (∑ k : Fin 128, if k.val < 64 then xr k * sr k else zero)
  else (∑ k : Fin 128, xr k * sr k) - (∑ k : Fin 128, if k.val < 64 then xr k * sr k else zero)

/-- The packed computation at lane l: x · s · (100 / clip(row sum)). -/
def rowVal (xr sr : Fin 128 → EReal) (l : Fin 128) : EReal :=
  xr l * sr l * Ideal.div hundred (clip (den xr sr l))

/-- The plain computation on one logical row at column j: (100 · x · s) / clip(0 + Σ x · s). -/
def refVal (xrow srow : Fin 64 → EReal) (j : Fin 64) : EReal :=
  Ideal.div (hundred * xrow j * srow j) (clip (zero + ∑ k : Fin 64, xrow k * srow k))

/-- On the first row's lanes the two agree, whatever the entries are. -/
theorem rowVal_lane0 (xr sr : Fin 128 → EReal) (j : Fin 64) :
    rowVal xr sr (lane0 j) = refVal (fun k => xr (lane0 k)) (fun k => sr (lane0 k)) j := by
  unfold rowVal refVal den
  rw [if_pos (lane0_lt j), sum_masked (fun k => xr k * sr k), zero_val, zero_add]
  obtain ⟨c, hc, e⟩ := clip_real (∑ k : Fin 64, xr (lane0 k) * sr (lane0 k))
  rw [e]
  exact scale_law _ _ _ hc

/-- On the second row's lanes they agree when the row's entries are real numbers. -/
theorem rowVal_lane1 (xr sr : Fin 128 → EReal) (hx : ∀ k, IsFin (xr k)) (hs : ∀ k, IsFin (sr k))
    (j : Fin 64) :
    rowVal xr sr (lane1 j) = refVal (fun k => xr (lane1 k)) (fun k => sr (lane1 k)) j := by
  unfold rowVal refVal den
  have hf : ∀ k, IsFin (xr k * sr k) := fun k => by
    obtain ⟨a, ha⟩ := hx k
    obtain ⟨b, hb⟩ := hs k
    exact ⟨a * b, by rw [ha, hb, EReal.coe_mul]⟩
  rw [if_neg (lane1_not_lt j), sum_masked (fun k => xr k * sr k),
    sum_rest (fun k => xr k * sr k) hf, zero_val, zero_add]
  obtain ⟨c, hc, e⟩ := clip_real (∑ k : Fin 64, xr (lane1 k) * sr (lane1 k))
  rw [e]
  exact scale_law _ _ _ hc

end RowPair

end
-- ==== Proof.RowPairBlock.lean ====
/-
  What the kernel body leaves in one output block, as a function of the x block and one s block,
  and that function at an index.

  A block has 2048 rows of 128 lanes. The body multiplies the two blocks lane by lane, takes each
  row's sum over all lanes and its sum over the lanes below 64 (the others masked to zero), gives
  each lane the masked sum if it is below 64 and the difference of the two sums otherwise, clips
  that, and scales the product by 100 over the clipped value. The body does this four times, once
  per s block; the four stored values are one function `scaleBlock` of (x, s), and at row r and
  lane l it is the packed-row value `RowPair.rowVal` of the r-th rows of the two blocks.
-/
import proofs.«412795_j53008486367235_3_alg».proof.Proof.Gen.KernelIdeal.Skeleton
import proofs.«412795_j53008486367235_3_alg».proof.Proof.RowPairLaw
import Idealize.ShloMosaic.Lib.ValueIdx
import Idealize.ShloMosaic.Lib.Pipeline.Value
import Idealize.ShloMosaic.PureOps.Ideal.Laws

noncomputable section

namespace Cert.KernelIdeal.RowPairBlock

open Cert.KernelIdeal Cert.KernelIdeal.Gen Idealize.ShloMosaic Idealize.ShloMosaic.ValueIdx
open scoped BigOperators

variable {F : FTy → Type} [FloatOps F]

/-! ### The body as one function -/

/-- The mask of the lanes below 64: the first logical row's lanes. -/
def firstHalf : IVec S2048x128 1 :=
  cmpi .slt (iota .tc S2048x128 32 [1] iota_S2048x128_d1_w32) (broadcast S2048x128 64#32)

/-- Each row's sum over its 128 lanes, kept as a column. -/
def rowSums (v : FVec F S2048x128 .f32) : FVec F S2048x1 .f32 :=
  shapeCast S2048x1 (multiReduction .add [1] S2048 v 0x00000000#32 reduces_S2048x128_S2048 (.inl rfl) rfl)
    shapeCasts_S2048_S2048x1

/-- A column repeated along the 128 lanes. -/
def spread (w : FVec F S2048x1 .f32) : FVec F S2048x128 .f32 :=
  broadcastTo S2048x128 (shapeCast S2048x1 w shapeCasts_S2048x1_S2048x1) broadcasts_S2048x1_S2048x128

/-- One output block from the x block and an s block. -/
def scaleBlock (x s : Vec F S2048x128 .f32) : FVec F S2048x128 .f32 :=
  have xs : FVec F S2048x128 .f32 :=
    mulf (shapeCast S2048x128 x shapeCasts_S2048x128_S2048x128) (shapeCast S2048x128 s shapeCasts_S2048x128_S2048x128)
  have low : FVec F S2048x1 .f32 :=
    rowSums (select firstHalf xs (broadcast S2048x128 (Scalar.ofBits .f32 0x00000000#32)))
  have d : FVec F S2048x128 .f32 := select firstHalf (spread low) (spread (subf (rowSums xs) low))
  mulf xs (divf (broadcast S2048x128 (Scalar.ofBits .f32 0x42C80000#32))
    (minimumf (broadcast S2048x128 (Scalar.ofBits .f32 0x4CBEBC20#32))
      (maximumf (broadcast S2048x128 (Scalar.ofBits .f32 0x322BCC77#32)) d)))

/-- The four stored values are that function of x and of s1, s2, s3, s4. -/
theorem stored5 (x0 x1 : Vec F S2048x128 .f32) : k0_pay4 x0 x1 = scaleBlock x0 x1 := rfl
theorem stored6 (x0 x2 : Vec F S2048x128 .f32) :
    k0_pay9 k0_pay3 (k0_pay5 x0 x2) (k0_pay7 x0 x2) (k0_pay8 x0 x2) = scaleBlock x0 x2 := rfl
theorem stored7 (x0 x3 : Vec F S2048x128 .f32) :
    k0_pay10 (k0_pay2 x0) k0_pay3 x3 = scaleBlock x0 x3 := rfl
theorem stored8 (x0 x4 : Vec F S2048x128 .f32) :
    k0_pay1 k0_pay3 (k0_pay11 (k0_pay2 x0) x4) (k0_pay12 (k0_pay2 x0) x4) (Scalar.ofBits .f32 0x00000000#32)
      = scaleBlock x0 x4 := rfl

/-! ### The pieces at an index -/

/-- Comparing a lane number below 128 with 64 as signed 32-bit words is comparing the numbers. -/
theorem lane_lt : ∀ l : Fin 128, IntOp.cmpi .slt (BitVec.ofNat 32 l.val) 64#32 = if l.val < 64 then 1#1 else 0#1 := by
  decide

theorem firstHalf_apply (r : Fin 2048) (l : Fin 128) :
    firstHalf (ix2 r l) = if l.val < 64 then 1#1 else 0#1 := by
  unfold firstHalf
  show IntOp.cmpi .slt (iota .tc S2048x128 32 [1] iota_S2048x128_d1_w32 (ix2 r l)) 64#32 = _
  rw [iota_single_apply]
  exact lane_lt l

/-- A choice by a one-bit word that is 1 exactly when `p` holds is the choice by `p`. -/
theorem select_ite {α : Type} (p : Prop) [Decidable p] (a b : α) :
    Scalar.select (if p then 1#1 else 0#1) a b = if p then a else b := by
  unfold Scalar.select
  by_cases h : p
  · rw [if_pos h, if_pos h]; exact if_pos (by decide)
  · rw [if_neg h, if_neg h]; exact if_neg (by decide)

/-- A column spread along the lanes reads the column's entry of the same row. -/
theorem spread_apply (w : FVec F S2048x1 .f32) (r : Fin 2048) (l : Fin 128) :
    spread w (ix2 r l) = w (ix2 r (0 : Fin 1)) := by
  unfold spread
  rw [shapeCast_self]
  exact broadcastTo_apply w broadcasts_S2048x1_S2048x128 (ix2 r l) (ix2 r (0 : Fin 1)) (fun a => match a with
    | ⟨0, _⟩ => by show r.val = if (2048 : Nat) = 1 then 0 else r.val; rw [if_neg (by decide)]
    | ⟨1, _⟩ => by show 0 = if (1 : Nat) = 1 then 0 else l.val; rw [if_pos rfl])

/-- A row's sum at the ideal values is the sum of the row's 128 entries. -/
theorem rowSums_apply (v : FVec Ideal S2048x128 .f32) (r : Fin 2048) (z : Fin 1) :
    rowSums v (ix2 r z) = ∑ k : Fin 128, v (ix2 r k) := by
  unfold rowSums
  have hz : z.val = 0 := by have := z.isLt; omega
  rw [shapeCast_apply _ shapeCasts_S2048_S2048x1 (ix2 r z) (ix1 r) (by
    rw [Shape.rowMajor_val_one, Shape.rowMajor_val_two]
    show r.val = r.val * 1 + z.val
    omega)]
  refine (Ideal.multiReduction_add_single v 0x00000000#32 reduces_S2048x128_S2048 (.inl rfl) rfl (ix1 r)).trans ?_
  refine Finset.sum_congr rfl fun k _ => congrArg v ?_
  funext c
  apply Fin.ext
  rw [Shape.Reduces.lift_val]
  match c with
  | ⟨0, _⟩ => simp [Shape.Reduces.liftVal]
  | ⟨1, _⟩ => simp [Shape.Reduces.liftVal]

/-! ### The body at an index -/

/-- At the ideal values, row r and lane l of the output block is the packed-row value of the two
    blocks' r-th rows at lane l. -/
theorem scaleBlock_apply (x s : FVec Ideal S2048x128 .f32) (r : Fin 2048) (l : Fin 128) :
    scaleBlock (F := Ideal) x s (ix2 r l) = RowPair.rowVal (fun k => x (ix2 r k)) (fun k => s (ix2 r k)) l := by
  unfold scaleBlock RowPair.rowVal RowPair.den RowPair.clip
  simp only [shapeCast_self]
  show (x (ix2 r l) * s (ix2 r l)) * Ideal.div (Ideal.ofBits .f32 0x42C80000#32)
      (min (Ideal.ofBits .f32 0x4CBEBC20#32) (max (Ideal.ofBits .f32 0x322BCC77#32)
        (Scalar.select (firstHalf (ix2 r l))
          (spread (rowSums (select firstHalf (mulf x s) (broadcast S2048x128 (Ideal.ofBits .f32 0x00000000#32)))) (ix2 r l))
          (spread (subf (rowSums (mulf x s))
            (rowSums (select firstHalf (mulf x s) (broadcast S2048x128 (Ideal.ofBits .f32 0x00000000#32))))) (ix2 r l))))) = _
  rw [firstHalf_apply, select_ite, spread_apply, spread_apply]
  show _ * Ideal.div _ (min _ (max _ (if l.val < 64 then _ else
    rowSums (mulf x s) (ix2 r (0 : Fin 1))
      - rowSums (select firstHalf (mulf x s) (broadcast S2048x128 (Ideal.ofBits .f32 0x00000000#32))) (ix2 r (0 : Fin 1))))) = _
  rw [rowSums_apply, rowSums_apply]
  have hm : ∀ k : Fin 128, select firstHalf (mulf x s) (broadcast S2048x128 (Ideal.ofBits .f32 0x00000000#32)) (ix2 r k)
      = if k.val < 64 then x (ix2 r k) * s (ix2 r k) else RowPair.zero := fun k => by
    show Scalar.select (firstHalf (ix2 r k)) (x (ix2 r k) * s (ix2 r k)) (Ideal.ofBits .f32 0x00000000#32) = _
    rw [firstHalf_apply, select_ite]
  simp only [hm]
  rfl

end Cert.KernelIdeal.RowPairBlock

end
-- ==== Proof.PackedValue.lean ====
/-
  The kernel's four output arrays, in their packed [131072, 128] layout, as functions of the packed
  argument arrays.

  The region's grid has 64 points; at point t every window's block is rows t · 2048 … t · 2048 + 2047
  of its array, all 128 lanes, and the body writes the output block `scaleBlock` of the x block and
  the s block. So each output array, whole, is `packedOut` of the packed x and the packed s: at
  (R, L) the packed-row value of the two arrays' rows R at lane L.
-/
import proofs.«412795_j53008486367235_3_alg».proof.Proof.Gen.KernelIdeal.Frame
import proofs.«412795_j53008486367235_3_alg».proof.Proof.RowPairBlock
import Idealize.ShloMosaic.Lib.Pipeline.Value

set_option maxRecDepth 16384

noncomputable section

namespace Cert.KernelIdeal.PackedValue

open Cert.KernelIdeal Cert.KernelIdeal.Gen Cert.KernelIdeal.RowPairBlock
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ### The packed result as one function -/

/-- Row `r` of the block at grid point `t`, as a row of the packed array. -/
abbrev rowAt (t : Nat) (ht : t < 64) (r : Fin 2048) : Fin 131072 := ⟨t * 2048 + r.val, by omega⟩

/-- The packed result of a packed x and a packed s: at row R and lane L, the packed-row value of
    the two arrays' rows R at lane L. -/
def packedOut (X S : S131072x128.Idx → EReal) : S131072x128.Idx → EReal :=
  fun I => RowPair.rowVal (fun k => X (ix2 (⟨(I 0).val, (I 0).isLt⟩ : Fin 131072) k))
    (fun k => S (ix2 (⟨(I 0).val, (I 0).isLt⟩ : Fin 131072) k)) (⟨(I 1).val, (I 1).isLt⟩ : Fin 128)

theorem packedOut_apply (X S : S131072x128.Idx → EReal) (R : Fin 131072) (L : Fin 128) :
    packedOut X S (ix2 R L) = RowPair.rowVal (fun k => X (ix2 R k)) (fun k => S (ix2 R k)) L := rfl

/-- A block of 2048 rows of the packed result, from row t · 2048 on, is `scaleBlock` of the same
    blocks of X and S. -/
theorem block_of_packedOut (X S : S131072x128.Idx → EReal) (xb sb : FVec Ideal S2048x128 .f32)
    (t : Nat) (ht : t < 64)
    (hx : ∀ (r : Fin 2048) (k : Fin 128), xb (ix2 r k) = X (ix2 (rowAt t ht r) k))
    (hs : ∀ (r : Fin 2048) (k : Fin 128), sb (ix2 r k) = S (ix2 (rowAt t ht r) k))
    (r : Fin 2048) (l : Fin 128) :
    scaleBlock (F := Ideal) xb sb (ix2 r l) = packedOut X S (ix2 (rowAt t ht r) l) := by
  rw [scaleBlock_apply, packedOut_apply]
  simp only [hx, hs]

theorem hz : (![0, 0] : Fin 2 → Nat) = fun _ => 0 := funext fun a => by fin_cases a <;> rfl

/-! ### Where the blocks lie -/

/-- The printed index maps, decided over the 64 grid points: every window's block at point t is
    block (t, 0) of its array. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The same at the point with a given number. -/
theorem idx_nat (n : Nat) (h : n < cfg0.N) :
    (win0_0.index ⟨n, h⟩ (0 : Fin 2) = n ∧ win0_0.index ⟨n, h⟩ (1 : Fin 2) = 0)
    ∧ (win0_1.index ⟨n, h⟩ (0 : Fin 2) = n ∧ win0_1.index ⟨n, h⟩ (1 : Fin 2) = 0)
    ∧ (win0_2.index ⟨n, h⟩ (0 : Fin 2) = n ∧ win0_2.index ⟨n, h⟩ (1 : Fin 2) = 0)
    ∧ (win0_3.index ⟨n, h⟩ (0 : Fin 2) = n ∧ win0_3.index ⟨n, h⟩ (1 : Fin 2) = 0)
    ∧ (win0_4.index ⟨n, h⟩ (0 : Fin 2) = n ∧ win0_4.index ⟨n, h⟩ (1 : Fin 2) = 0)
    ∧ (win0_5.index ⟨n, h⟩ (0 : Fin 2) = n ∧ win0_5.index ⟨n, h⟩ (1 : Fin 2) = 0)
    ∧ (win0_6.index ⟨n, h⟩ (0 : Fin 2) = n ∧ win0_6.index ⟨n, h⟩ (1 : Fin 2) = 0)
    ∧ (win0_7.index ⟨n, h⟩ (0 : Fin 2) = n ∧ win0_7.index ⟨n, h⟩ (1 : Fin 2) = 0)
    ∧ (win0_8.index ⟨n, h⟩ (0 : Fin 2) = n ∧ win0_8.index ⟨n, h⟩ (1 : Fin 2) = 0) :=
  idx_facts ⟨n, h⟩

/-! ### The three steps every output window takes, written once

The four output windows differ only in which s array and s window they read and in their own
names; the steps below take those names as arguments. -/

set_option hygiene false in
/-- WHAT A POINT WRITES BACK. The buffer after the body is the canon of one whole-block store, that is
    its payload, which is `scaleBlock` of the two input blocks; an input block's entry (r, k) is its
    array's entry (t · 2048 + r, k), and the output block's entry (r, l) lands at (t · 2048 + r, l).
    Arguments: the window's after-lemma, its buffer's definition, its payload lemma, the output
    window's number and name, the s window's number and name, the s array. -/
local macro "flushed_is_block " aft:ident out:ident st:ident w:num win:ident sj:num swin:ident sarr:ident : tactic =>
  `(tactic| (
    show (cfg0.win $w).cut (grid0.coords t) ((dats m 0 c).after $w t) = _
    rw [$aft:ident]
    unfold $out
    rw [View.canon_unit_zero hz]
    simp only [View.ld_unit_zero (S := S2048x128) hz]
    rw [$st:ident]
    have ht : t.val < 64 := lt_of_lt_of_eq t.isLt N_0
    obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
    funext j
    obtain ⟨r, l, rfl⟩ : ∃ (r : Fin 2048) (l : Fin 128), j = ix2 r l := ⟨j 0, j 1, eq_ix2 j⟩
    show scaleBlock (F := Ideal) (iblk m c 0 t) (iblk m c $sj t) (ix2 r l)
      = packedOut (V m c main_v0) (V m c $sarr) (((cfg0.win $w).blk t).view.emb (ix2 r l))
    have he : ((cfg0.win $w).blk t).view.emb (ix2 r l) = ix2 (rowAt t.val ht r) l := by
      funext a; apply Fin.ext
      match a with
      | ⟨0, _⟩ => show ($win).index t (0 : Fin 2) * 2048 + 1 * r.val = t.val * 2048 + r.val; omega
      | ⟨1, _⟩ => show ($win).index t (1 : Fin 2) * 128 + 1 * l.val = l.val; omega
    rw [he]
    refine block_of_packedOut (V m c main_v0) (V m c $sarr) (iblk m c 0 t) (iblk m c $sj t) t.val ht
      (fun r k => ?_) (fun r k => ?_) r l
    · show V m c main_v0 (((cfg0.win 0).blk t).view.emb (ix2 r k)) = V m c main_v0 (ix2 (rowAt t.val ht r) k)
      refine congrArg (V m c main_v0) (funext fun a => Fin.ext ?_)
      match a with
      | ⟨0, _⟩ => show win0_0.index t (0 : Fin 2) * 2048 + 1 * r.val = t.val * 2048 + r.val; omega
      | ⟨1, _⟩ => show win0_0.index t (1 : Fin 2) * 128 + 1 * k.val = k.val; omega
    · show V m c $sarr (((cfg0.win $sj).blk t).view.emb (ix2 r k)) = V m c $sarr (ix2 (rowAt t.val ht r) k)
      refine congrArg (V m c $sarr) (funext fun a => Fin.ext ?_)
      match a with
      | ⟨0, _⟩ => show ($swin).index t (0 : Fin 2) * 2048 + 1 * r.val = t.val * 2048 + r.val; omega
      | ⟨1, _⟩ => show ($swin).index t (1 : Fin 2) * 128 + 1 * k.val = k.val; omega))

set_option hygiene false in
/-- MEMBERSHIP IN A BLOCK: the block is the unit-stride rectangle at its index times its size.
    Arguments: the output array and the window's name. -/
local macro "block_is_rect " arr:ident win:ident : tactic =>
  `(tactic| (
    show i ∈ ((View.whole $arr).slice (($win).rect t)).set ↔ _
    rw [View.set_slice_whole, Rect.mem_set_unit]
    exact Iff.rfl))

set_option hygiene false in
/-- THE COVER: row R of the array lies in the block of point R / 2048, which writes back.
    Arguments: the window's flush lemma, its membership lemma, its name. -/
local macro "rows_covered " fl:ident mb:ident win:ident : tactic =>
  `(tactic| (
    have hi0 : (i 0).val < 131072 := (i 0).isLt
    have hi1 : (i 1).val < 128 := (i 1).isLt
    have hN : (i 0).val / 2048 < cfg0.N := lt_of_lt_of_eq (by omega : (i 0).val / 2048 < 64) N_0.symm
    obtain ⟨-, -, -, -, -, ⟨a5, b5⟩, ⟨a6, b6⟩, ⟨a7, b7⟩, ⟨a8, b8⟩⟩ := idx_nat ((i 0).val / 2048) hN
    refine ⟨⟨(i 0).val / 2048, hN⟩, $fl _, ?_⟩
    rw [$mb:ident]
    intro a
    match a with
    | ⟨0, _⟩ =>
      show ($win).index ⟨(i 0).val / 2048, hN⟩ (0 : Fin 2) * 2048 ≤ (i 0).val
        ∧ (i 0).val < ($win).index ⟨(i 0).val / 2048, hN⟩ (0 : Fin 2) * 2048 + 2048
      omega
    | ⟨1, _⟩ =>
      show ($win).index ⟨(i 0).val / 2048, hN⟩ (1 : Fin 2) * 128 ≤ (i 1).val
        ∧ (i 1).val < ($win).index ⟨(i 0).val / 2048, hN⟩ (1 : Fin 2) * 128 + 128
      omega))

/-! ### Output window 5: x with s1 -/

theorem flushed5_eq (c : Dev nD) (t : Fin cfg0.N) :
    (dats m 0 c).flushed 5 t
      = ((cfg0.win 5).blk t).view.read (Elt Ideal) (packedOut (V m c main_v0) (V m c main_v1)) := by
  flushed_is_block after0_5 out0_5 stored5 5 win0_5 1 win0_1 main_v1

theorem mem_blk5 (t : Fin cfg0.N) (i : S131072x128.Idx) :
    i ∈ ((cfg0.win 5).blk t).view.set ↔ ∀ a : Fin 2, win0_5.index t a * S2048x128.size a ≤ (i a).val
      ∧ (i a).val < win0_5.index t a * S2048x128.size a + S2048x128.size a := by
  block_is_rect main_v5_0 win0_5

theorem cover5 (i : S131072x128.Idx) :
    ∃ t : Fin cfg0.N, (cfg0.win 5).flush t = true ∧ i ∈ ((cfg0.win 5).blk t).view.set := by
  rows_covered flush0_5 mem_blk5 win0_5

/-- The first output array after the run. -/
theorem final5 (c : Dev nD) :
    (dats m 0 c).arrAt 5 cfg0.N = packedOut (V m c main_v0) (V m c main_v1) :=
  (dats m 0 c).arrAt_eq_of_cover 5 _ (fun t _ => flushed5_eq m c t) cover5

/-! ### Output window 6: x with s2 -/

theorem flushed6_eq (c : Dev nD) (t : Fin cfg0.N) :
    (dats m 0 c).flushed 6 t
      = ((cfg0.win 6).blk t).view.read (Elt Ideal) (packedOut (V m c main_v0) (V m c main_v2)) := by
  flushed_is_block after0_6 out0_6 stored6 6 win0_6 2 win0_2 main_v2

theorem mem_blk6 (t : Fin cfg0.N) (i : S131072x128.Idx) :
    i ∈ ((cfg0.win 6).blk t).view.set ↔ ∀ a : Fin 2, win0_6.index t a * S2048x128.size a ≤ (i a).val
      ∧ (i a).val < win0_6.index t a * S2048x128.size a + S2048x128.size a := by
  block_is_rect main_v5_1 win0_6

theorem cover6 (i : S131072x128.Idx) :
    ∃ t : Fin cfg0.N, (cfg0.win 6).flush t = true ∧ i ∈ ((cfg0.win 6).blk t).view.set := by
  rows_covered flush0_6 mem_blk6 win0_6

/-- The second output array after the run. -/
theorem final6 (c : Dev nD) :
    (dats m 0 c).arrAt 6 cfg0.N = packedOut (V m c main_v0) (V m c main_v2) :=
  (dats m 0 c).arrAt_eq_of_cover 6 _ (fun t _ => flushed6_eq m c t) cover6

/-! ### Output window 7: x with s3 -/

theorem flushed7_eq (c : Dev nD) (t : Fin cfg0.N) :
    (dats m 0 c).flushed 7 t
      = ((cfg0.win 7).blk t).view.read (Elt Ideal) (packedOut (V m c main_v0) (V m c main_v3)) := by
  flushed_is_block after0_7 out0_7 stored7 7 win0_7 3 win0_3 main_v3

theorem mem_blk7 (t : Fin cfg0.N) (i : S131072x128.Idx) :
    i ∈ ((cfg0.win 7).blk t).view.set ↔ ∀ a : Fin 2, win0_7.index t a * S2048x128.size a ≤ (i a).val
      ∧ (i a).val < win0_7.index t a * S2048x128.size a + S2048x128.size a := by
  block_is_rect main_v5_2 win0_7

theorem cover7 (i : S131072x128.Idx) :
    ∃ t : Fin cfg0.N, (cfg0.win 7).flush t = true ∧ i ∈ ((cfg0.win 7).blk t).view.set := by
  rows_covered flush0_7 mem_blk7 win0_7

/-- The third output array after the run. -/
theorem final7 (c : Dev nD) :
    (dats m 0 c).arrAt 7 cfg0.N = packedOut (V m c main_v0) (V m c main_v3) :=
  (dats m 0 c).arrAt_eq_of_cover 7 _ (fun t _ => flushed7_eq m c t) cover7

/-! ### Output window 8: x with s4 -/

theorem flushed8_eq (c : Dev nD) (t : Fin cfg0.N) :
    (dats m 0 c).flushed 8 t
      = ((cfg0.win 8).blk t).view.read (Elt Ideal) (packedOut (V m c main_v0) (V m c main_v4)) := by
  flushed_is_block after0_8 out0_8 stored8 8 win0_8 4 win0_4 main_v4

theorem mem_blk8 (t : Fin cfg0.N) (i : S131072x128.Idx) :
    i ∈ ((cfg0.win 8).blk t).view.set ↔ ∀ a : Fin 2, win0_8.index t a * S2048x128.size a ≤ (i a).val
      ∧ (i a).val < win0_8.index t a * S2048x128.size a + S2048x128.size a := by
  block_is_rect main_v5_3 win0_8

theorem cover8 (i : S131072x128.Idx) :
    ∃ t : Fin cfg0.N, (cfg0.win 8).flush t = true ∧ i ∈ ((cfg0.win 8).blk t).view.set := by
  rows_covered flush0_8 mem_blk8 win0_8

/-- The fourth output array after the run. -/
theorem final8 (c : Dev nD) :
    (dats m 0 c).arrAt 8 cfg0.N = packedOut (V m c main_v0) (V m c main_v4) :=
  (dats m 0 c).arrAt_eq_of_cover 8 _ (fun t _ => flushed8_eq m c t) cover8

end Cert.KernelIdeal.PackedValue

end
-- ==== Proof.KernelRun.lean ====
/-
  The kernel program's run with its four results named.

  Before the region each argument array [262144, 64] is viewed as [131072, 128] (`pack`); after it
  each packed output is viewed as [262144, 64] again (`unpack`). So result j is
  `unpack (packedOut (pack x) (pack s_j))`, and the arguments end as they were launched.
-/
import proofs.«412795_j53008486367235_3_alg».proof.Proof.PackedValue
import Idealize.ShloMosaic.Lib.StableHlo.Run

set_option maxRecDepth 16384

noncomputable section

namespace Cert.KernelIdeal.KernelRun

open Cert.KernelIdeal Cert.KernelIdeal.Gen Cert.KernelIdeal.PackedValue
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A [262144, 64] array viewed as [131072, 128]: two logical rows per packed row. -/
def pack (a : S262144x64.Idx → EReal) : S131072x128.Idx → EReal :=
  shapeCast S131072x128 a shapeCasts_S262144x64_S131072x128

/-- A [131072, 128] array viewed as [262144, 64] again. -/
def unpack (W : S131072x128.Idx → EReal) : S262144x64.Idx → EReal :=
  shapeCast S262144x64 W shapeCasts_S131072x128_S262144x64

/-! ### What the region finds: the packed arguments -/

theorem V_main_v0 (c : Dev nD) : V m c main_v0 = pack (m ((c : Thread nD τ).loc main_arg0)) := by
  show StableHlo.after hostOps0 (fun b => m (c, b)) (Proc.devRef .tc main_v0) = _
  after_results
  rfl
theorem V_main_v1 (c : Dev nD) : V m c main_v1 = pack (m ((c : Thread nD τ).loc main_arg1)) := by
  show StableHlo.after hostOps0 (fun b => m (c, b)) (Proc.devRef .tc main_v1) = _
  after_results
  rfl
theorem V_main_v2 (c : Dev nD) : V m c main_v2 = pack (m ((c : Thread nD τ).loc main_arg2)) := by
  show StableHlo.after hostOps0 (fun b => m (c, b)) (Proc.devRef .tc main_v2) = _
  after_results
  rfl
theorem V_main_v3 (c : Dev nD) : V m c main_v3 = pack (m ((c : Thread nD τ).loc main_arg3)) := by
  show StableHlo.after hostOps0 (fun b => m (c, b)) (Proc.devRef .tc main_v3) = _
  after_results
  rfl
theorem V_main_v4 (c : Dev nD) : V m c main_v4 = pack (m ((c : Thread nD τ).loc main_arg4)) := by
  show StableHlo.after hostOps0 (fun b => m (c, b)) (Proc.devRef .tc main_v4) = _
  after_results
  rfl

/-! ### What the lines after the region leave: the unpacked outputs -/

theorem tail_v6 (c : Dev nD) :
    Pipeline.afterTail₀ cfgs (dats m) 0 (V0 m) [hostOps1] c main_v6 = unpack ((dats m 0 c).arrAt 5 cfg0.N) := by
  unfold Pipeline.afterTail₀
  show StableHlo.after hostOps1 _ (Proc.devRef .tc main_v6) = _
  after_results
  rw [Pipeline.withArrays_arr spec0 launch0.win.arr_inj c _ _ 5]
  rfl
theorem tail_v7 (c : Dev nD) :
    Pipeline.afterTail₀ cfgs (dats m) 0 (V0 m) [hostOps1] c main_v7 = unpack ((dats m 0 c).arrAt 6 cfg0.N) := by
  unfold Pipeline.afterTail₀
  show StableHlo.after hostOps1 _ (Proc.devRef .tc main_v7) = _
  after_results
  rw [Pipeline.withArrays_arr spec0 launch0.win.arr_inj c _ _ 6]
  rfl
theorem tail_v8 (c : Dev nD) :
    Pipeline.afterTail₀ cfgs (dats m) 0 (V0 m) [hostOps1] c main_v8 = unpack ((dats m 0 c).arrAt 7 cfg0.N) := by
  unfold Pipeline.afterTail₀
  show StableHlo.after hostOps1 _ (Proc.devRef .tc main_v8) = _
  after_results
  rw [Pipeline.withArrays_arr spec0 launch0.win.arr_inj c _ _ 7]
  rfl
theorem tail_v9 (c : Dev nD) :
    Pipeline.afterTail₀ cfgs (dats m) 0 (V0 m) [hostOps1] c main_v9 = unpack ((dats m 0 c).arrAt 8 cfg0.N) := by
  unfold Pipeline.afterTail₀
  show StableHlo.after hostOps1 _ (Proc.devRef .tc main_v9) = _
  after_results
  rw [Pipeline.withArrays_arr spec0 launch0.win.arr_inj c _ _ 8]
  rfl

/-! ### The run -/

/-- The kernel's result for the argument pair (x, s): pack both, take the packed result, unpack. -/
def result (x s : S262144x64.Idx → EReal) : S262144x64.Idx → EReal :=
  unpack (packedOut (pack x) (pack s))

/-- Every weakly fair execution of the kernel program ends with result j at `result x s_j` and the
    arguments unchanged. -/
theorem run : θ_run defs (onTc (τ := τ) (main (F := Ideal))) ⟨m, fun _ => 0, ρ⟩ fun r => ∀ c : Dev nD,
      r.2.mem ((c.tc : Thread nD τ).loc main_v6)
        = result (m ((c.tc : Thread nD τ).loc main_arg0)) (m ((c.tc : Thread nD τ).loc main_arg1))
      ∧ r.2.mem ((c.tc : Thread nD τ).loc main_v7)
        = result (m ((c.tc : Thread nD τ).loc main_arg0)) (m ((c.tc : Thread nD τ).loc main_arg2))
      ∧ r.2.mem ((c.tc : Thread nD τ).loc main_v8)
        = result (m ((c.tc : Thread nD τ).loc main_arg0)) (m ((c.tc : Thread nD τ).loc main_arg3))
      ∧ r.2.mem ((c.tc : Thread nD τ).loc main_v9)
        = result (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v6 (Pipeline.mem_restRefs_of main_v6 (by decide) (by decide))).trans
        ((tail_v6 m c).trans (by rw [final5, V_main_v0, V_main_v1]; rfl)),
      ((h c).2 main_v7 (Pipeline.mem_restRefs_of main_v7 (by decide) (by decide))).trans
        ((tail_v7 m c).trans (by rw [final6, V_main_v0, V_main_v2]; rfl)),
      ((h c).2 main_v8 (Pipeline.mem_restRefs_of main_v8 (by decide) (by decide))).trans
        ((tail_v8 m c).trans (by rw [final7, V_main_v0, V_main_v3]; rfl)),
      ((h c).2 main_v9 (Pipeline.mem_restRefs_of main_v9 (by decide) (by decide))).trans
        ((tail_v9 m c).trans (by rw [final8, V_main_v0, V_main_v4]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.Bridge.lean ====
/-
  The kernel's result is the reference's result, index by index.

  At logical row i and column j the kernel's result is the packed result at packed row i / 2 and lane
  (i mod 2) · 64 + j. If i is even that lane is lane j of the first logical row of the packed row and
  the 64 lanes of that row are row i of the logical arrays; if i is odd it is lane j of the second
  logical row, whose lanes are row i again. In both cases the packed-row value is the plain value
  (100 · x · s) / clip(Σ_k x(i,k) · s(i,k)), which is what the reference computes at (i, j); the odd
  rows need the entries to be real numbers.
-/
import proofs.«412795_j53008486367235_3_alg».proof.Proof.KernelRun
import proofs.«412795_j53008486367235_3_alg».proof.Proof.Gen.ReferenceIdeal.Read

noncomputable section

namespace Cert.Bridge

open Idealize.ShloMosaic Idealize.ShloMosaic.ValueIdx IdealFinite
open Cert.KernelIdeal.KernelRun Cert.KernelIdeal.PackedValue
open scoped BigOperators

/-! ### The two views at an index -/

/-- Entry (R, k) of the packed view is entry (2R + k / 64, k mod 64) of the logical array. -/
theorem pack_apply (a : Cert.KernelIdeal.S262144x64.Idx → EReal) (R : Fin 131072) (k : Fin 128) :
    pack a (ix2 R k) = a (ix2 (⟨2 * R.val + k.val / 64, by omega⟩ : Fin 262144) (⟨k.val % 64, by omega⟩ : Fin 64)) := by
  unfold pack
  refine shapeCast_apply a _ (ix2 R k) _ ?_
  rw [Shape.rowMajor_val_two, Shape.rowMajor_val_two]
  show (2 * R.val + k.val / 64) * 64 + k.val % 64 = R.val * 128 + k.val
  omega

/-- Entry (i, j) of the logical view is entry (i / 2, (i mod 2) · 64 + j) of the packed array. -/
theorem unpack_apply (W : Cert.KernelIdeal.S131072x128.Idx → EReal) (i : Fin 262144) (j : Fin 64) :
    unpack W (ix2 i j) = W (ix2 (⟨i.val / 2, by omega⟩ : Fin 131072) (⟨i.val % 2 * 64 + j.val, by omega⟩ : Fin 128)) := by
  unfold unpack
  refine shapeCast_apply W _ (ix2 i j) _ ?_
  rw [Shape.rowMajor_val_two, Shape.rowMajor_val_two]
  show i.val / 2 * 128 + (i.val % 2 * 64 + j.val) = i.val * 64 + j.val
  omega

/-! ### The reference at an index -/

/-- The reference's first result at (i, j) is the plain row value of row i at column j. -/
theorem ref_apply (x s : Cert.ReferenceIdeal.S262144x64.Idx → EReal) (i : Fin 262144) (j : Fin 64) :
    Cert.ReferenceIdeal.Read.val_main_v8 (F := Ideal) x s (ix2 i j)
      = RowPair.refVal (fun k => x (ix2 i k)) (fun k => s (ix2 i k)) j := by
  have hrow : ∀ k : Fin 64, Cert.ReferenceIdeal.Read.idx_main_v4
      (Cert.ReferenceIdeal.Read.idx_main_v5 (Cert.ReferenceIdeal.Read.idx_main_v7 (ix2 i j))) k = ix2 i k :=
    fun k => funext fun a => Fin.ext (by match a with | ⟨0, _⟩ => rfl | ⟨1, _⟩ => rfl)
  rw [Cert.ReferenceIdeal.Read.val_main_v8_apply, Cert.ReferenceIdeal.Read.val_main_v2_apply,
    Cert.ReferenceIdeal.Read.val_main_v1_apply, Cert.ReferenceIdeal.Read.val_main_v0_apply,
    Cert.ReferenceIdeal.Read.val_main_cst_apply, Cert.ReferenceIdeal.Read.val_main_v7_apply,
    Cert.ReferenceIdeal.Read.val_main_v6_apply, Cert.ReferenceIdeal.Read.val_main_call0_v4_apply,
    Cert.ReferenceIdeal.Read.val_main_call0_v3_apply, Cert.ReferenceIdeal.Read.val_main_cst_2_apply,
    Cert.ReferenceIdeal.Read.val_main_call0_v2_apply, Cert.ReferenceIdeal.Read.val_main_call0_v1_apply,
    Cert.ReferenceIdeal.Read.val_main_call0_v0_apply, Cert.ReferenceIdeal.Read.val_main_cst_1_apply,
    Cert.ReferenceIdeal.Read.val_main_v5_apply, Cert.ReferenceIdeal.Read.val_main_v4_apply,
    Cert.ReferenceIdeal.Read.val_main_cst_0_apply]
  simp only [Cert.ReferenceIdeal.Read.val_main_v3_apply, hrow]
  rfl

/-- The four results of the reference are one function of (x, s_j). -/
theorem ref17 (x s : Cert.ReferenceIdeal.S262144x64.Idx → EReal) :
    Cert.ReferenceIdeal.Read.val_main_v17 (F := Ideal) x s = Cert.ReferenceIdeal.Read.val_main_v8 (F := Ideal) x s := rfl
theorem ref26 (x s : Cert.ReferenceIdeal.S262144x64.Idx → EReal) :
    Cert.ReferenceIdeal.Read.val_main_v26 (F := Ideal) x s = Cert.ReferenceIdeal.Read.val_main_v8 (F := Ideal) x s := rfl
theorem ref35 (x s : Cert.ReferenceIdeal.S262144x64.Idx → EReal) :
    Cert.ReferenceIdeal.Read.val_main_v35 (F := Ideal) x s = Cert.ReferenceIdeal.Read.val_main_v8 (F := Ideal) x s := rfl

/-! ### The two sides meet -/

/-- With real entries, the kernel's result for (x, s) is the reference's. -/
theorem result_eq_ref (x s : Cert.KernelIdeal.S262144x64.Idx → EReal)
    (hx : ∀ i, IsFin (x i)) (hs : ∀ i, IsFin (s i)) :
    result x s = Cert.ReferenceIdeal.Read.val_main_v8 (F := Ideal) x s := by
  funext I
  obtain ⟨i, j, rfl⟩ : ∃ (i : Fin 262144) (j : Fin 64), I = ix2 i j := ⟨I 0, I 1, eq_ix2 I⟩
  have hi : i.val < 262144 := i.isLt
  have hj : j.val < 64 := j.isLt
  rw [ref_apply]
  unfold result
  rw [unpack_apply, packedOut_apply]
  rcases Nat.mod_two_eq_zero_or_one i.val with h | h
  · -- an even row: the first logical row of packed row i / 2
    have hL : (⟨i.val % 2 * 64 + j.val, by omega⟩ : Fin 128) = RowPair.lane0 j :=
      Fin.ext (by show i.val % 2 * 64 + j.val = j.val; omega)
    rw [hL, RowPair.rowVal_lane0]
    have e : ∀ (a : Cert.KernelIdeal.S262144x64.Idx → EReal) (k : Fin 64),
        pack a (ix2 (⟨i.val / 2, by omega⟩ : Fin 131072) (RowPair.lane0 k)) = a (ix2 i k) := fun a k => by
      have hk : k.val < 64 := k.isLt
      rw [pack_apply]
      refine congrArg a (funext fun d => Fin.ext ?_)
      match d with
      | ⟨0, _⟩ => show 2 * (i.val / 2) + k.val / 64 = i.val; omega
      | ⟨1, _⟩ => show k.val % 64 = k.val; omega
    simp only [e]
  · -- an odd row: the second logical row of packed row i / 2
    have hL : (⟨i.val % 2 * 64 + j.val, by omega⟩ : Fin 128) = RowPair.lane1 j :=
      Fin.ext (by show i.val % 2 * 64 + j.val = 64 + j.val; omega)
    rw [hL, RowPair.rowVal_lane1 _ _ (fun k => by rw [pack_apply]; exact hx _) (fun k => by rw [pack_apply]; exact hs _)]
    have e : ∀ (a : Cert.KernelIdeal.S262144x64.Idx → EReal) (k : Fin 64),
        pack a (ix2 (⟨i.val / 2, by omega⟩ : Fin 131072) (RowPair.lane1 k)) = a (ix2 i k) := fun a k => by
      have hk : k.val < 64 := k.isLt
      rw [pack_apply]
      refine congrArg a (funext fun d => Fin.ext ?_)
      match d with
      | ⟨0, _⟩ => show 2 * (i.val / 2) + (64 + k.val) / 64 = i.val; omega
      | ⟨1, _⟩ => show (64 + k.val) % 64 = k.val; omega
    simp only [e]

end Cert.Bridge

end
-- ==== Proof.lean ====
/-
  The kernel computes, for each of four arrays s of shape [262144, 64] and one array x of the same
  shape, w = x · s · (100 / clip(b)) where b is the row sum of x · s; the reference computes
  (100 · x · s) / clip(b). The kernel views every array as [131072, 128], so that one 128-lane row
  holds two logical rows; it gets the first row's sum by masking the lanes from 64 on to zero and
  the second row's as the full 128-lane sum less that masked sum.

  Over the extended reals the two programs agree on finite inputs:
  • the masked sum is the first logical row's sum, with no condition;
  • the full sum less the masked sum is the second logical row's sum because every product is a
    real number (this is where the precondition is used);
  • the clipped value lies in [lo, hi] with 0 < lo and hi real, so it is a nonzero real number and
    x · s · (100 / c) = (100 · x · s) / c by commutativity and associativity of the product.
  The kernel's frames are the generated ones; the reference's frame is its generated run with the
  results dropped; no operation was rewritten by the idealization, so that conjunct is trivial.
-/
import proofs.«412795_j53008486367235_3_alg».proof.Defs
import proofs.«412795_j53008486367235_3_alg».proof.Proof.Gen.Kernel
import proofs.«412795_j53008486367235_3_alg».proof.Proof.Gen.Kernel.Skeleton
import proofs.«412795_j53008486367235_3_alg».proof.Proof.Gen.Kernel.Launch
import proofs.«412795_j53008486367235_3_alg».proof.Proof.Gen.Kernel.Points
import proofs.«412795_j53008486367235_3_alg».proof.Proof.Gen.Kernel.Frame
import proofs.«412795_j53008486367235_3_alg».proof.Proof.Gen.KernelIdeal
import proofs.«412795_j53008486367235_3_alg».proof.Proof.Gen.KernelIdeal.Skeleton
import proofs.«412795_j53008486367235_3_alg».proof.Proof.Gen.KernelIdeal.Launch
import proofs.«412795_j53008486367235_3_alg».proof.Proof.Gen.KernelIdeal.Points
import proofs.«412795_j53008486367235_3_alg».proof.Proof.Gen.KernelIdeal.Frame
import proofs.«412795_j53008486367235_3_alg».proof.Proof.Gen.ReferenceIdeal
import proofs.«412795_j53008486367235_3_alg».proof.Proof.Gen.Pre_finite_inputs
import proofs.«412795_j53008486367235_3_alg».proof.Proof.Gen.ReferenceIdeal.Run
import proofs.«412795_j53008486367235_3_alg».proof.Proof.Gen.ReferenceIdeal.Read
import proofs.«412795_j53008486367235_3_alg».proof.Proof.FiniteInputs
import proofs.«412795_j53008486367235_3_alg».proof.Proof.KernelRun
import proofs.«412795_j53008486367235_3_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the four results dropped. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- The idealization rewrote no operation. -/
theorem preserves : Cert.preserves_Kernel_KernelIdeal := trivial

/-- From memories that agree on the arguments and hold only real numbers, the two programs end with
    the same four results: result j is the kernel's `result x s_j`, which is the reference's term for
    the same pair. -/
theorem algebraic : Cert.algebraic_KernelIdeal_ReferenceIdeal := by
  intro m ρ m' ρ' hpre hagree
  refine ⟨_, _, _, _, Cert.KernelIdeal.KernelRun.run m ρ, ?_⟩
  refine (θ_run Cert.ReferenceIdeal.defs _ _).mono (fun _ h c => ?_)
    (Cert.ReferenceIdeal.Value.run (F := Ideal) m' ρ')
  obtain ⟨h8, h17, h26, h35, hargs⟩ := h c
  obtain ⟨g0, g1, g2, g3, g4⟩ := hagree c
  obtain ⟨f0, f1, f2, f3, f4⟩ := Cert.Pre_finite_inputs.Finite.finite_of_pre _ _ _ _ _ (hpre c)
  refine ⟨h8.trans ?_, h17.trans ?_, h26.trans ?_, h35.trans ?_, hargs⟩
  · rw [Cert.ReferenceIdeal.Read.val_main_v8_eq, g0, g1]
    exact (Cert.Bridge.result_eq_ref _ _ f0 f1).symm
  · rw [Cert.ReferenceIdeal.Read.val_main_v17_eq, Cert.Bridge.ref17, g0, g2]
    exact (Cert.Bridge.result_eq_ref _ _ f0 f2).symm
  · rw [Cert.ReferenceIdeal.Read.val_main_v26_eq, Cert.Bridge.ref26, g0, g3]
    exact (Cert.Bridge.result_eq_ref _ _ f0 f3).symm
  · rw [Cert.ReferenceIdeal.Read.val_main_v35_eq, Cert.Bridge.ref35, g0, g4]
    exact (Cert.Bridge.result_eq_ref _ _ f0 f4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
